-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S1x1x2048x2048 : Shape := ⟨4, ![1, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x64x2048 : S_.BroadcastsInDim S2x16x64x2048 (![] : Fin 0 → Fin S2x16x64x2048.rank)
  reducesTo_S2x16x64x2048_S_d0_1_2_3 : S2x16x64x2048.ReducesTo [0, 1, 2, 3] S_
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_arg4 : FVec F S1x1x2048x2048 .f32) (main_v13 : IVec S_ 1) (main_v16 : IVec S2x16x2048x2048 1) : IVec S_ 1 :=
  let main_c_5 : IVec S_ 1 := constantI S_ 1 1#1
  let main_v17 : IVec S_ 1 := (fun x v => Host.reduce IntOp.andi x v reducesTo_S2x16x2048x2048_S_d0_1_2_3 h_S_) main_v16 main_c_5
  let main_v18 : IVec S_ 1 := andi main_v13 main_v17
  let main_v19 : FVec F S1x1x2048x2048 .f32 := Host.absf main_arg4
  let main_cst_6 : FVec F S_ .f32 := constant S_ .f32 0x7F800000#32
  let main_v20 : FVec F S1x1x2048x2048 .f32 := broadcastInDim S1x1x2048x2048 ![] bcast_S_S1x1x2048x2048 main_cst_6
  let main_v21 : IVec S1x1x2048x2048 1 := cmpf .olt main_v19 main_v20
  let main_c_7 : IVec S_ 1 := constantI S_ 1 1#1
  let main_v22 : IVec S_ 1 := (fun x v => Host.reduce IntOp.andi x v reducesTo_S1x1x2048x2048_S_d0_1_2_3 h_S_) main_v21 main_c_7
  let main_v23 : IVec S_ 1 := andi main_v18 main_v22
  main_v23

def fn {F : FTy → Type} [FloatOps F] (main_arg0 : FVec F S2x16x2048x64 .f32) (main_arg1 : FVec F S2x16x64x2048 .f32) (main_arg2 : FVec F S2x16x2048x64 .f32) (main_arg3 : FVec F S2x16x2048x2048 .f32) (main_arg4 : FVec F S1x1x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x64x2048 .f32 := Host.absf main_arg1
  let main_cst_0 : FVec F S_ .f32 := constant S_ .f32 0x7F800000#32
  let main_v5 : FVec F S2x16x64x2048 .f32 := broadcastInDim S2x16x64x2048 ![] bcast_S_S2x16x64x2048 main_cst_0
  let main_v6 : IVec S2x16x64x2048 1 := cmpf .olt main_v4 main_v5
  let main_c_1 : IVec S_ 1 := constantI S_ 1 1#1
  let main_v7 : IVec S_ 1 := (fun x v => Host.reduce IntOp.andi x v reducesTo_S2x16x64x2048_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x16x2048x2048 .f32 := Host.absf main_arg3
  let main_cst_4 : FVec F S_ .f32 := constant S_ .f32 0x7F800000#32
  let main_v15 : FVec F S2x16x2048x2048 .f32 := broadcastInDim S2x16x2048x2048 ![] bcast_S_S2x16x2048x2048 main_cst_4
  let main_v16 : IVec S2x16x2048x2048 1 := cmpf .olt main_v14 main_v15
  fn_part1 (F := F) main_arg4 main_v13 main_v16
-- ==== Kernel.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S1x1x2048x2048 : Shape := ⟨4, ![1, 1, 2048, 2048]⟩
abbrev S1x1x256x64 : Shape := ⟨4, ![1, 1, 256, 64]⟩
abbrev S1x1x64x2048 : Shape := ⟨4, ![1, 1, 64, 2048]⟩
abbrev S1x1x2048x64 : Shape := ⟨4, ![1, 1, 2048, 64]⟩
abbrev S1x1x256x2048 : Shape := ⟨4, ![1, 1, 256, 2048]⟩
abbrev S256x64 : Shape := ⟨2, ![256, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S2048x64 : Shape := ⟨2, ![2048, 64]⟩

abbrev nBuf : Space → Nat
  | .hbm => 8
  | .vmem => 16
  | .smem => 0
  | _ => 0

abbrev bufTy : (tb : Table) → Fin (tcTables nBuf tb) → BufTy
  | .hbm, ⟨0, _⟩ => ⟨S2x16x2048x64, .f32⟩
  | .hbm, ⟨1, _⟩ => ⟨S2x16x64x2048, .f32⟩
  | .hbm, ⟨2, _⟩ => ⟨S2x16x2048x64, .f32⟩
  | .hbm, ⟨3, _⟩ => ⟨S2x16x2048x2048, .f32⟩
  | .hbm, ⟨4, _⟩ => ⟨S1x1x2048x2048, .f32⟩
  | .hbm, ⟨5, _⟩ => ⟨S2x16x2048x64, .f32⟩
  | .hbm, ⟨6, _⟩ => ⟨S2x16x2048x2048, .f32⟩
  | .hbm, ⟨7, _⟩ => ⟨S2x16x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x64x2048, .f32⟩
  | .local _ .vmem, ⟨3, _⟩ => ⟨S1x1x64x2048, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x1x256x2048, .f32⟩
  | .local _ .vmem, ⟨9, _⟩ => ⟨S1x1x256x2048, .f32⟩
  | .local _ .vmem, ⟨10, _⟩ => ⟨S1x1x256x64, .f32⟩
  | .local _ .vmem, ⟨11, _⟩ => ⟨S1x1x256x64, .f32⟩
  | .local _ .vmem, ⟨12, _⟩ => ⟨S1x1x256x2048, .f32⟩
  | .local _ .vmem, ⟨13, _⟩ => ⟨S1x1x256x2048, .f32⟩
  | .local _ .vmem, ⟨14, _⟩ => ⟨S1x1x256x2048, .f32⟩
  | .local _ .vmem, ⟨15, _⟩ => ⟨S1x1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg2.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  reduces_S256x2048_S256 : S256x2048.Reduces [1] S256
  shapeCasts_S256_S256x1 : S256.ShapeCasts S256x1
  broadcasts_S256x1_S256x2048 : S256x1.Broadcasts S256x2048
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S256x64_S1x1x256x64 : S256x64.ShapeCasts S1x1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S2x16x2048x64.size a
  hwx0_0 : ∀ i : grid0.Coords, EltTy.bits .f32 = 32 ∨ (Rect.block (s := S2x16x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2048.size a ≤ S2x16x64x2048.size a
  hwx0_1 : ∀ i : grid0.Coords, EltTy.bits .f32 = 32 ∨ (Rect.block (s := S2x16x64x2048) S1x1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S1x1x2048x2048.size a
  hwx0_3 : ∀ i : grid0.Coords, EltTy.bits .f32 = 32 ∨ (Rect.block (s := S1x1x2048x2048) S1x1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x2048.size a ≤ S2x16x2048x2048.size a
  hwx0_4 : ∀ i : grid0.Coords, EltTy.bits .f32 = 32 ∨ (Rect.block (s := S2x16x2048x2048) S1x1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x64.size a ≤ S2x16x2048x64.size a
  hwx0_5 : ∀ i : grid0.Coords, EltTy.bits .f32 = 32 ∨ (Rect.block (s := S2x16x2048x64) S1x1x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256x2048.size a ≤ S2x16x2048x2048.size a
  hwx0_6 : ∀ i : grid0.Coords, EltTy.bits .f32 = 32 ∨ (Rect.block (s := S2x16x2048x2048) S1x1x256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256x2048.size a ≤ S2x16x2048x2048.size a
  hwx0_7 : ∀ i : grid0.Coords, EltTy.bits .f32 = 32 ∨ (Rect.block (s := S2x16x2048x2048) S1x1x256x2048.size (cc0_transform_7 i) (hinb0_7 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x1x256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S1x1x2048x2048 : Shape := ⟨4, ![1, 1, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x64x2048, .f32⟩
  | .hbm, ⟨2, _⟩ => ⟨S2x16x2048x64, .f32⟩
  | .hbm, ⟨3, _⟩ => ⟨S2x16x2048x2048, .f32⟩
  | .hbm, ⟨4, _⟩ => ⟨S1x1x2048x2048, .f32⟩
  | .hbm, ⟨5, _⟩ => ⟨S2x16x2048x2048, .f32⟩
  | .hbm, ⟨6, _⟩ => ⟨S_, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S_, .f32⟩
  | .hbm, ⟨16, _⟩ => ⟨S2x16x2048, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x64x2048_S2x16x2048x2048_3_2_2_3_01_01_wf : DotDims.WF S2x16x2048x64 S2x16x64x2048 S2x16x2048x2048 [3] [2] [2] [3] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x64x2048_S2x16x2048x2048_3_2_2_3_01_01 : DotDims S2x16x2048x64 S2x16x64x2048 S2x16x2048x2048 where
  lhsContracting := [3]
  rhsContracting := [2]
  lhsNonContracting := [2]
  rhsNonContracting := [3]
  lhsBatch := [0, 1]
  rhsBatch := [0, 1]
  wf := dot_S2x16x2048x64_S2x16x64x2048_S2x16x2048x2048_3_2_2_3_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Scaled dot-product attention over heads of 2048 positions and 64 features, read one ROW at a time on the extended reals.
  For a head (b, h) and a query position s:
    scores (b, h, s, t) = ((∑ d, q (b, h, s, d) · k (b, h, d, t)) · 1/8 + mask (0, 0, s, t)) + prev (b, h, s, t),
    attn   (b, h, s, t) = exp (scores t - M) / ∑ u, exp (scores u - M),  M the row's maximum (taken from -∞),
    ctx    (b, h, s, e) = ∑ t, attn (b, h, s, t) · v (b, h, t, e).
  The module states these three arrays as functions of the five argument arrays, and proves the one arithmetic fact that
  joins a product with the word of 1/8 to a quotient by the square root of the word of 64.
-/
import Idealize.ShloMosaic.Lib.ValueIdx
import Idealize.ShloMosaic.PureOps.Ideal.Laws

noncomputable section

namespace Cert.Attn

open Idealize.ShloMosaic Idealize.ShloMosaic.ValueIdx

/-- The value of the word of -∞: where a row's maximum starts. -/
abbrev negInf : EReal := Ideal.ofBits .f32 0xFF800000#32

/-- The value of the word of 0.125, the scale 1/√64. -/
abbrev eighth : EReal := Ideal.ofBits .f32 0x3E000000#32

/-- One row of scores: the row of q against every column of k, scaled, plus the mask's row, plus the bias row. -/
def scoreRow (qrow : Fin 64 → EReal) (kmat : Fin 64 → Fin 2048 → EReal) (mrow prow : Fin 2048 → EReal) : Fin 2048 → EReal :=
  fun t => ((∑ d : Fin 64, qrow d * kmat d t) * eighth + mrow t) + prow t

/-- A row's maximum, folded from -∞ and then once more compared with -∞ (as both programs do). -/
def rowMax (x : Fin 2048 → EReal) : EReal :=
  max negInf ((Finset.univ : Finset (Fin 2048)).fold max negInf x)

/-- The softmax of one row: each entry's exponential after the row's maximum is taken off, over the sum of those. -/
def softmaxRow (x : Fin 2048 → EReal) : Fin 2048 → EReal :=
  fun t => Ideal.div (Ideal.exp (x t - rowMax x)) (∑ u : Fin 2048, Ideal.exp (x u - rowMax x))

/-- One row of the context: the attention row against every column of v. -/
def ctxRow (a : Fin 2048 → EReal) (v : Fin 2048 → Fin 64 → EReal) : Fin 64 → EReal :=
  fun e => ∑ t : Fin 2048, a t * v t e

/-- The arrays' shapes: q and v, k (stored transposed), the scores, the mask (one for every head). -/
abbrev SQ : Shape := ⟨4, ![2, 16, 2048, 64]⟩
abbrev SK : Shape := ⟨4, ![2, 16, 64, 2048]⟩
abbrev SS : Shape := ⟨4, ![2, 16, 2048, 2048]⟩
abbrev SM : Shape := ⟨4, ![1, 1, 2048, 2048]⟩

/-- The score row of head (b, h) at query position s. -/
def scoresAt (q : SQ.Idx → EReal) (k : SK.Idx → EReal) (mask : SM.Idx → EReal) (prev : SS.Idx → EReal)
    (b : Fin 2) (h : Fin 16) (s : Fin 2048) : Fin 2048 → EReal :=
  scoreRow (fun d => q (ix4 b h s d)) (fun d t => k (ix4 b h d t)) (fun t => mask (ix4 (0 : Fin 1) (0 : Fin 1) s t))
    (fun t => prev (ix4 b h s t))

/-- The scores array. -/
def scores (q : SQ.Idx → EReal) (k : SK.Idx → EReal) (mask : SM.Idx → EReal) (prev : SS.Idx → EReal) : SS.Idx → EReal :=
  fun i => scoresAt q k mask prev (i 0) (i 1) (i 2) (i 3)

/-- The attention array: the softmax of each score row. -/
def attn (q : SQ.Idx → EReal) (k : SK.Idx → EReal) (mask : SM.Idx → EReal) (prev : SS.Idx → EReal) : SS.Idx → EReal :=
  fun i => softmaxRow (scoresAt q k mask prev (i 0) (i 1) (i 2)) (i 3)

/-- The context array: each attention row against the head's v. -/
def ctx (q : SQ.Idx → EReal) (k : SK.Idx → EReal) (v : SQ.Idx → EReal) (mask : SM.Idx → EReal) (prev : SS.Idx → EReal) :
    SQ.Idx → EReal :=
  fun i => ctxRow (softmaxRow (scoresAt q k mask prev (i 0) (i 1) (i 2))) (fun t e => v (ix4 (i 0) (i 1) t e)) (i 3)

/-! ## The scale: a quotient by √64 is the product with 1/8 -/

/-- The word of 64.0 denotes the real 64. -/
theorem ofBits_64 : Ideal.ofBits .f32 0x42800000#32 = ((64 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  show (if (64 : ℝ) < 0 then (⊥ : EReal) else ((Real.sqrt 64 : ℝ) : EReal)) = _
  rw [if_neg (by norm_num)]
  congr 1
  rw [show (64 : ℝ) = 8 ^ 2 by norm_num, Real.sqrt_sq (by norm_num)]

/-- Dividing by √64 is multiplying by 1/8, at the infinities too. -/
theorem div_sqrt64 (x : EReal) :
    Ideal.div x (Ideal.sqrt (Ideal.ofBits .f32 0x42800000#32)) = x * eighth := by
  rw [ofBits_64, sqrt_64, Ideal.div_coe (by norm_num)]
  show _ = x * Ideal.ofBits .f32 0x3E000000#32
  rw [ofBits_eighth]

end Cert.Attn

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.KPay.lean ====
/-
  The kernel body's five stored values read at an index, on the extended reals. One grid point holds a tile of 256 query rows of one
  head; the body's values are functions of the loaded blocks, and each is read here at a row r of the tile:
  the score tile's row r is the score row of the q block's row r against the k block, with the mask and bias blocks' rows r;
  the attention tile's row r is the softmax of that score row; the context tile's row r is that attention row against the v block.
-/
import proofs.«137787_j12171937316878_1_alg».proof.Proof.Gen.KernelIdeal.Skeleton
import proofs.«137787_j12171937316878_1_alg».proof.Proof.Spec
import proofs.«137787_j12171937316878_1_alg».proof.Proof.LibPlainDot
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx Cert.Attn

/-! ## Layout operations of the body read at an index by coordinates -/

/-- A matrix given two leading unit axes reads, at (0, 0, r, t), the matrix at (r, t). -/
private theorem cast_ab_11ab {α : Type} {a b : Nat} (x : (⟨2, ![a, b]⟩ : Shape).Idx → α)
    (h : (⟨2, ![a, b]⟩ : Shape).ShapeCasts ⟨4, ![1, 1, a, b]⟩) (r : Fin a) (t : Fin b) :
    shapeCast ⟨4, ![1, 1, a, b]⟩ x h (ix4 (0 : Fin 1) (0 : Fin 1) r t) = x (ix2 r t) :=
  shapeCast_apply x h _ _ (by
    rw [Shape.rowMajor_val_two, Shape.rowMajor_val_four]
    show r.val * b + t.val = ((0 * 1 + 0) * a + r.val) * b + t.val
    simp only [Nat.zero_mul, Nat.zero_add])

/-- A block with two leading unit axes read as a matrix: at (r, t) it is the block at (0, 0, r, t). -/
private theorem cast_11ab_ab {α : Type} {a b : Nat} (x : (⟨4, ![1, 1, a, b]⟩ : Shape).Idx → α)
    (h : (⟨4, ![1, 1, a, b]⟩ : Shape).ShapeCasts ⟨2, ![a, b]⟩) (r : Fin a) (t : Fin b) :
    shapeCast ⟨2, ![a, b]⟩ x h (ix2 r t) = x (ix4 (0 : Fin 1) (0 : Fin 1) r t) :=
  shapeCast_apply x h _ _ (by
    rw [Shape.rowMajor_val_two, Shape.rowMajor_val_four]
    show ((0 * 1 + 0) * a + r.val) * b + t.val = r.val * b + t.val
    simp only [Nat.zero_mul, Nat.zero_add])

/-- The score tile at (r, t): the score row of the q block's row r, at column t. -/
theorem pay3_apply (P0 : Vec Ideal S1x1x256x64 .f32) (P1 : Vec Ideal S1x1x64x2048 .f32) (P2 P3 : Vec Ideal S1x1x256x2048 .f32)
    (r : Fin 256) (t : Fin 2048) :
    k0_pay3 P0 P1 P2 P3 (ix2 r t)
      = scoreRow (fun d => P0 (ix4 (0 : Fin 1) (0 : Fin 1) r d)) (fun d u => P1 (ix4 (0 : Fin 1) (0 : Fin 1) d u))
          (fun u => P2 (ix4 (0 : Fin 1) (0 : Fin 1) r u)) (fun u => P3 (ix4 (0 : Fin 1) (0 : Fin 1) r u)) t := by
  -- the product of the q block's row r with the k block's column t
  have hm : FloatOps.matmul (F := Ideal) dot_S256x64_S64x2048_S256x2048_1_0_0_1_n_n none
        (truncf .bf16 (shapeCast S256x64 P0 shapeCasts_S1x1x256x64_S256x64 : FVec Ideal S256x64 .f32) bitsLt_bf16_f32)
        (truncf .bf16 (shapeCast S64x2048 P1 shapeCasts_S1x1x64x2048_S64x2048 : FVec Ideal S64x2048 .f32) bitsLt_bf16_f32)
        (constant S256x2048 .f32 0x00000000#32) (ix2 r t)
      = ∑ d : Fin 64, P0 (ix4 (0 : Fin 1) (0 : Fin 1) r d) * P1 (ix4 (0 : Fin 1) (0 : Fin 1) d t) := by
    refine (Cert.PlainDot.matmul_zero_apply (M := 256) (K := 64) (N := 2048) none _ _ _).trans ?_
    refine Finset.sum_congr rfl fun d _ => ?_
    exact congrArg₂ (· * ·) (cast_11ab_ab P0 shapeCasts_S1x1x256x64_S256x64 r d)
      (cast_11ab_ab P1 shapeCasts_S1x1x64x2048_S64x2048 d t)
  show (FloatOps.matmul (F := Ideal) dot_S256x64_S64x2048_S256x2048_1_0_0_1_n_n none
        (truncf .bf16 (shapeCast S256x64 P0 shapeCasts_S1x1x256x64_S256x64 : FVec Ideal S256x64 .f32) bitsLt_bf16_f32)
        (truncf .bf16 (shapeCast S64x2048 P1 shapeCasts_S1x1x64x2048_S64x2048 : FVec Ideal S64x2048 .f32) bitsLt_bf16_f32)
        (constant S256x2048 .f32 0x00000000#32) (ix2 r t) * eighth
      + shapeCast S256x2048 P2 shapeCasts_S1x1x256x2048_S256x2048 (ix2 r t))
      + shapeCast S256x2048 P3 shapeCasts_S1x1x256x2048_S256x2048 (ix2 r t) = _
  rw [hm, cast_11ab_ab P2 shapeCasts_S1x1x256x2048_S256x2048 r t, cast_11ab_ab P3 shapeCasts_S1x1x256x2048_S256x2048 r t]
  rfl

/-- The stored score block at (0, 0, r, t) is the score tile at (r, t). -/
theorem pay4_apply (P0 : Vec Ideal S1x1x256x64 .f32) (P1 : Vec Ideal S1x1x64x2048 .f32) (P2 P3 : Vec Ideal S1x1x256x2048 .f32)
    (r : Fin 256) (t : Fin 2048) :
    k0_pay4 P0 P1 P2 P3 (ix4 (0 : Fin 1) (0 : Fin 1) r t) = k0_pay3 P0 P1 P2 P3 (ix2 r t) :=
  cast_ab_11ab (k0_pay3 P0 P1 P2 P3) shapeCasts_S256x2048_S1x1x256x2048 r t

/-- A column of 256 entries spread over 2048 columns reads, at (r, t), its entry r. -/
private theorem col_bcast {α : Type} (x : S256.Idx → α) (r : Fin 256) (t : Fin 2048) :
    broadcastTo S256x2048 (shapeCast S256x1 x shapeCasts_S256_S256x1) broadcasts_S256x1_S256x2048 (ix2 r t) = x (ix1 r) := by
  refine (broadcastTo_apply _ broadcasts_S256x1_S256x2048 (ix2 r t) (ix2 r (0 : Fin 1)) (fun a => ?_)).trans ?_
  · match a with
    | ⟨0, _⟩ => show r.val = if (256 : Nat) = 1 then 0 else r.val; rw [if_neg (by decide)]
    | ⟨1, _⟩ => show 0 = if (1 : Nat) = 1 then 0 else t.val; rw [if_pos rfl]
  · exact shapeCast_apply x shapeCasts_S256_S256x1 _ _ (by
      rw [Shape.rowMajor_val_one, Shape.rowMajor_val_two]
      show r.val = r.val * 1 + 0
      rw [Nat.mul_one, Nat.add_zero])

/-- The index of row r with the column u put back on the reduced axis is (r, u). -/
private theorem lift_row (r : Fin 256) (u : Fin 2048) : reduces_S256x2048_S256.lift (ix1 r) u = ix2 r u :=
  funext fun a => Fin.ext (by match a with | ⟨0, _⟩ => rfl | ⟨1, _⟩ => rfl)

/-- The maximum over the columns of a tile, at row r: the fold of max from -∞ over that row. -/
private theorem max_row (S : FVec Ideal S256x2048 .f32) (r : Fin 256) :
    multiReduction .maximumf [1] S256 S 0xFF800000#32 reduces_S256x2048_S256 (.inl rfl) rfl (ix1 r)
      = (Finset.univ : Finset (Fin 2048)).fold max negInf (fun u => S (ix2 r u)) := by
  refine (Ideal.multiReduction_maximumf_single S _ reduces_S256x2048_S256 (.inl rfl) rfl (ix1 r)).trans ?_
  show (Finset.univ : Finset (Fin 2048)).fold max negInf (fun u => S (reduces_S256x2048_S256.lift (ix1 r) u)) = _
  exact congrArg (fun f => (Finset.univ : Finset (Fin 2048)).fold max negInf f) (funext fun u => congrArg S (lift_row r u))

/-- The sum over the columns of a tile, at row r: the sum of that row. -/
private theorem sum_row (E : FVec Ideal S256x2048 .f32) (r : Fin 256) :
    multiReduction .add [1] S256 E 0x00000000#32 reduces_S256x2048_S256 (.inl rfl) rfl (ix1 r)
      = ∑ u : Fin 2048, E (ix2 r u) := by
  refine (Ideal.multiReduction_add_single E _ reduces_S256x2048_S256 (.inl rfl) rfl (ix1 r)).trans ?_
  show ∑ u : Fin 2048, E (reduces_S256x2048_S256.lift (ix1 r) u) = _
  exact Finset.sum_congr rfl fun u _ => congrArg E (lift_row r u)

/-- The body's row maximum of a tile, at row r: the row maximum of the specification. -/
private theorem tile_max (S : FVec Ideal S256x2048 .f32) (r : Fin 256) :
    (maximumf (broadcast S256 (Scalar.ofBits .f32 0xFF800000#32))
      (multiReduction .maximumf [1] S256 S 0xFF800000#32 reduces_S256x2048_S256 (.inl rfl) rfl) : FVec Ideal S256 .f32) (ix1 r)
      = rowMax (fun u => S (ix2 r u)) :=
  (maximumf_apply _ _ (ix1 r)).trans (congrArg (max negInf) (max_row S r))

/-- A tile less a column spread over its columns, exponentiated, at (r, u). -/
private theorem tile_exp (S : FVec Ideal S256x2048 .f32) (M : FVec Ideal S256 .f32) (r : Fin 256) (u : Fin 2048) :
    (exp (subf S (broadcastTo S256x2048 (shapeCast S256x1 M shapeCasts_S256_S256x1) broadcasts_S256x1_S256x2048))
      : FVec Ideal S256x2048 .f32) (ix2 r u) = Ideal.exp (S (ix2 r u) - M (ix1 r)) :=
  congrArg (fun m => Ideal.exp (S (ix2 r u) - m)) (col_bcast M r u)

/-- A tile over a column spread over its columns, at (r, t). -/
private theorem tile_div (E : FVec Ideal S256x2048 .f32) (Z : FVec Ideal S256 .f32) (r : Fin 256) (t : Fin 2048) :
    (divf E (broadcastTo S256x2048 (shapeCast S256x1 Z shapeCasts_S256_S256x1) broadcasts_S256x1_S256x2048)
      : FVec Ideal S256x2048 .f32) (ix2 r t) = Ideal.div (E (ix2 r t)) (Z (ix1 r)) :=
  congrArg (Ideal.div (E (ix2 r t))) (col_bcast Z r t)

/-- The body's softmax of a tile, at (r, t): the softmax of the tile's row r, at column t. -/
private theorem tile_softmax (S : FVec Ideal S256x2048 .f32) (r : Fin 256) (t : Fin 2048) :
    (divf (exp (subf S (broadcastTo S256x2048 (shapeCast S256x1 (maximumf (broadcast S256 (Scalar.ofBits .f32 0xFF800000#32))
          (multiReduction .maximumf [1] S256 S 0xFF800000#32 reduces_S256x2048_S256 (.inl rfl) rfl)) shapeCasts_S256_S256x1)
          broadcasts_S256x1_S256x2048)))
      (broadcastTo S256x2048 (shapeCast S256x1 (multiReduction .add [1] S256
          (exp (subf S (broadcastTo S256x2048 (shapeCast S256x1 (maximumf (broadcast S256 (Scalar.ofBits .f32 0xFF800000#32))
            (multiReduction .maximumf [1] S256 S 0xFF800000#32 reduces_S256x2048_S256 (.inl rfl) rfl)) shapeCasts_S256_S256x1)
            broadcasts_S256x1_S256x2048)))
          0x00000000#32 reduces_S256x2048_S256 (.inl rfl) rfl) shapeCasts_S256_S256x1) broadcasts_S256x1_S256x2048)
      : FVec Ideal S256x2048 .f32) (ix2 r t)
      = softmaxRow (fun u => S (ix2 r u)) t := by
  -- each exponential of row r, with the row's maximum read as the specification's
  have hE : ∀ u : Fin 2048, _ = Ideal.exp (S (ix2 r u) - rowMax (fun u => S (ix2 r u))) := fun u =>
    (tile_exp S _ r u).trans (congrArg (fun m => Ideal.exp (S (ix2 r u) - m)) (tile_max S r))
  refine (tile_div _ _ r t).trans ?_
  refine (congrArg₂ Ideal.div (hE t) ((sum_row _ r).trans (Finset.sum_congr rfl fun u _ => hE u))).trans ?_
  rfl

/-- The attention tile at (r, t): the softmax of the score tile's row r, at column t. -/
theorem pay5_apply (P0 : Vec Ideal S1x1x256x64 .f32) (P1 : Vec Ideal S1x1x64x2048 .f32) (P2 P3 : Vec Ideal S1x1x256x2048 .f32)
    (r : Fin 256) (t : Fin 2048) :
    k0_pay5 P0 P1 P2 P3 (ix2 r t) = softmaxRow (fun u => k0_pay3 P0 P1 P2 P3 (ix2 r u)) t := by
  exact tile_softmax (k0_pay3 P0 P1 P2 P3) r t

/-- The stored attention block at (0, 0, r, t) is the attention tile at (r, t). -/
theorem pay1_apply (A : FVec Ideal S256x2048 .f32) (r : Fin 256) (t : Fin 2048) :
    k0_pay1 A (ix4 (0 : Fin 1) (0 : Fin 1) r t) = A (ix2 r t) :=
  cast_ab_11ab A shapeCasts_S256x2048_S1x1x256x2048 r t

/-- The stored context block at (0, 0, r, e): the attention tile's row r against the v block's column e. -/
theorem pay2_apply (A : FVec Ideal S256x2048 .f32) (Vb : Vec Ideal S1x1x2048x64 .f32) (r : Fin 256) (e : Fin 64) :
    k0_pay2 A Vb (ix4 (0 : Fin 1) (0 : Fin 1) r e)
      = ctxRow (fun u => A (ix2 r u)) (fun u e' => Vb (ix4 (0 : Fin 1) (0 : Fin 1) u e')) e := by
  -- the stored block at (0, 0, r, e) is the product matrix at (r, e)
  show shapeCast S1x1x256x64 (FloatOps.matmul (F := Ideal) dot_S256x2048_S2048x64_S256x64_1_0_0_1_n_n none
        (truncf .bf16 A bitsLt_bf16_f32)
        (truncf .bf16 (shapeCast S2048x64 Vb shapeCasts_S1x1x2048x64_S2048x64 : FVec Ideal S2048x64 .f32) bitsLt_bf16_f32)
        (constant S256x64 .f32 0x00000000#32)) shapeCasts_S256x64_S1x1x256x64 (ix4 (0 : Fin 1) (0 : Fin 1) r e) = _
  refine (cast_ab_11ab _ shapeCasts_S256x64_S1x1x256x64 r e).trans ?_
  -- which is the attention tile's row r against the v block's column e
  refine (Cert.PlainDot.matmul_zero_apply (M := 256) (K := 2048) (N := 64) none _ _ _).trans ?_
  refine Finset.sum_congr rfl fun u _ => ?_
  exact congrArg (A (ix2 r u) * ·) (cast_11ab_ab Vb shapeCasts_S1x1x2048x64_S2048x64 u e)

end Cert.KernelIdeal.Tile

end
-- ==== Proof.KArr.lean ====
/-
  From tiles to arrays. The grid has one point for every head (b, h) and every tile of 256 query rows; the point's blocks are
  row tile si of head (b, h) of q, the bias and the three results, the whole of head (b, h) of k and v, and row tile si of the mask.
  So what a point writes back is its own block of the scores, attention and context arrays of Spec.lean, the blocks tile each
  result array, and after the run the three arrays hold those functions of the argument arrays.
-/
import proofs.«137787_j12171937316878_1_alg».proof.Proof.Gen.KernelIdeal.Value
import proofs.«137787_j12171937316878_1_alg».proof.Proof.KPay
import proofs.«137787_j12171937316878_1_alg».proof.Proof.Spec

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Attn

variable (m : (ℓ : Loc nD τ sig) → Buf (Elt Ideal) ℓ) (ρ : Dev nD → PrngReg)

theorem hz4 : (![0, 0, 0, 0] : Fin 4 → Nat) = fun _ => 0 := funext fun a => by fin_cases a <;> rfl

/-! ## Which blocks a grid point holds -/

/-- The block indices of the eight windows at a grid point, decided over the 256 points: the score window's block index is
    (b, h, si, 0) with b < 2, h < 16, si < 8; q, the bias, the attention and the context windows have the same block index,
    k and v are at (b, h, 0, 0), the mask at (0, 0, si, 0). -/
theorem idx_facts : ∀ t : Fin cfg0.N,
    win0_7.index t (0 : Fin 4) < 2 ∧ win0_7.index t (1 : Fin 4) < 16 ∧ win0_7.index t (2 : Fin 4) < 8 ∧ win0_7.index t (3 : Fin 4) = 0
    ∧ win0_0.index t (0 : Fin 4) = win0_7.index t (0 : Fin 4) ∧ win0_0.index t (1 : Fin 4) = win0_7.index t (1 : Fin 4)
    ∧ win0_0.index t (2 : Fin 4) = win0_7.index t (2 : Fin 4) ∧ win0_0.index t (3 : Fin 4) = 0
    ∧ win0_1.index t (0 : Fin 4) = win0_7.index t (0 : Fin 4) ∧ win0_1.index t (1 : Fin 4) = win0_7.index t (1 : Fin 4)
    ∧ win0_1.index t (2 : Fin 4) = 0 ∧ win0_1.index t (3 : Fin 4) = 0
    ∧ win0_2.index t (0 : Fin 4) = win0_7.index t (0 : Fin 4) ∧ win0_2.index t (1 : Fin 4) = win0_7.index t (1 : Fin 4)
    ∧ win0_2.index t (2 : Fin 4) = 0 ∧ win0_2.index t (3 : Fin 4) = 0
    ∧ win0_3.index t (0 : Fin 4) = 0 ∧ win0_3.index t (1 : Fin 4) = 0
    ∧ win0_3.index t (2 : Fin 4) = win0_7.index t (2 : Fin 4) ∧ win0_3.index t (3 : Fin 4) = 0
    ∧ win0_4.index t (0 : Fin 4) = win0_7.index t (0 : Fin 4) ∧ win0_4.index t (1 : Fin 4) = win0_7.index t (1 : Fin 4)
    ∧ win0_4.index t (2 : Fin 4) = win0_7.index t (2 : Fin 4) ∧ win0_4.index t (3 : Fin 4) = 0
    ∧ win0_5.index t (0 : Fin 4) = win0_7.index t (0 : Fin 4) ∧ win0_5.index t (1 : Fin 4) = win0_7.index t (1 : Fin 4)
    ∧ win0_5.index t (2 : Fin 4) = win0_7.index t (2 : Fin 4) ∧ win0_5.index t (3 : Fin 4) = 0
    ∧ win0_6.index t (0 : Fin 4) = win0_7.index t (0 : Fin 4) ∧ win0_6.index t (1 : Fin 4) = win0_7.index t (1 : Fin 4)
    ∧ win0_6.index t (2 : Fin 4) = win0_7.index t (2 : Fin 4) ∧ win0_6.index t (3 : Fin 4) = 0 :=
  (by decide +kernel : ∀ t : Fin grid0.N, _)

/-- Every (b, h, si) is some point's block index. -/
theorem idx_onto : ∀ (b : Fin 2) (h : Fin 16) (si : Fin 8), ∃ t : Fin cfg0.N,
    win0_7.index t (0 : Fin 4) = b.val ∧ win0_7.index t (1 : Fin 4) = h.val ∧ win0_7.index t (2 : Fin 4) = si.val :=
  (by decide +kernel : ∀ (b : Fin 2) (h : Fin 16) (si : Fin 8), ∃ t : Fin grid0.N,
    win0_7.index t (0 : Fin 4) = b.val ∧ win0_7.index t (1 : Fin 4) = h.val ∧ win0_7.index t (2 : Fin 4) = si.val)

/-- The batch entry b of a point's head. -/
def hd (t : Fin cfg0.N) : Fin 2 := ⟨win0_7.index t (0 : Fin 4), (idx_facts t).1⟩
/-- The head h of a point. -/
def hh (t : Fin cfg0.N) : Fin 16 := ⟨win0_7.index t (1 : Fin 4), (idx_facts t).2.1⟩
/-- The query position of row r of a point's tile: si · 256 + r. -/
def row (t : Fin cfg0.N) (r : Fin 256) : Fin 2048 :=
  ⟨win0_7.index t (2 : Fin 4) * 256 + r.val, by have := (idx_facts t).2.2.1; have := r.isLt; omega⟩

/-! ## The loaded blocks are the head's rows of the argument arrays -/

/-- The q block's row r is q's row (b, h, si · 256 + r). -/
theorem q_blk (c : Dev nD) (t : Fin cfg0.N) (r : Fin 256) (d : Fin 64) :
    (iblk m c 0 t : Vec Ideal S1x1x256x64 .f32) (ix4 (0 : Fin 1) (0 : Fin 1) r d) = V m c main_arg0 (ix4 (hd t) (hh t) (row t r) d) := by
  show V m c main_arg0 (((cfg0.win 0).blk t).view.emb (ix4 (0 : Fin 1) (0 : Fin 1) r d)) = _
  refine congrArg (V m c main_arg0) (funext fun a => Fin.ext ?_)
  obtain ⟨_, _, _, _, e0, e1, e2, e3, _⟩ := idx_facts t
  match a with
  | ⟨0, _⟩ => show win0_0.index t (0 : Fin 4) * 1 + 1 * 0 = win0_7.index t (0 : Fin 4); omega
  | ⟨1, _⟩ => show win0_0.index t (1 : Fin 4) * 1 + 1 * 0 = win0_7.index t (1 : Fin 4); omega
  | ⟨2, _⟩ => show win0_0.index t (2 : Fin 4) * 256 + 1 * r.val = win0_7.index t (2 : Fin 4) * 256 + r.val; omega
  | ⟨3, _⟩ => show win0_0.index t (3 : Fin 4) * 64 + 1 * d.val = d.val; omega

/-- The k block is the whole of k's head (b, h). -/
theorem k_blk (c : Dev nD) (t : Fin cfg0.N) (d : Fin 64) (u : Fin 2048) :
    (iblk m c 1 t : Vec Ideal S1x1x64x2048 .f32) (ix4 (0 : Fin 1) (0 : Fin 1) d u) = V m c main_arg1 (ix4 (hd t) (hh t) d u) := by
  show V m c main_arg1 (((cfg0.win 1).blk t).view.emb (ix4 (0 : Fin 1) (0 : Fin 1) d u)) = _
  refine congrArg (V m c main_arg1) (funext fun a => Fin.ext ?_)
  obtain ⟨_, _, _, _, _, _, _, _, e0, e1, e2, e3, _⟩ := idx_facts t
  match a with
  | ⟨0, _⟩ => show win0_1.index t (0 : Fin 4) * 1 + 1 * 0 = win0_7.index t (0 : Fin 4); omega
  | ⟨1, _⟩ => show win0_1.index t (1 : Fin 4) * 1 + 1 * 0 = win0_7.index t (1 : Fin 4); omega
  | ⟨2, _⟩ => show win0_1.index t (2 : Fin 4) * 64 + 1 * d.val = d.val; omega
  | ⟨3, _⟩ => show win0_1.index t (3 : Fin 4) * 2048 + 1 * u.val = u.val; omega

/-- The v block is the whole of v's head (b, h). -/
theorem v_blk (c : Dev nD) (t : Fin cfg0.N) (u : Fin 2048) (e : Fin 64) :
    (iblk m c 2 t : Vec Ideal S1x1x2048x64 .f32) (ix4 (0 : Fin 1) (0 : Fin 1) u e) = V m c main_arg2 (ix4 (hd t) (hh t) u e) := by
  show V m c main_arg2 (((cfg0.win 2).blk t).view.emb (ix4 (0 : Fin 1) (0 : Fin 1) u e)) = _
  refine congrArg (V m c main_arg2) (funext fun a => Fin.ext ?_)
  obtain ⟨_, _, _, _, _, _, _, _, _, _, _, _, e0, e1, e2, e3, _⟩ := idx_facts t
  match a with
  | ⟨0, _⟩ => show win0_2.index t (0 : Fin 4) * 1 + 1 * 0 = win0_7.index t (0 : Fin 4); omega
  | ⟨1, _⟩ => show win0_2.index t (1 : Fin 4) * 1 + 1 * 0 = win0_7.index t (1 : Fin 4); omega
  | ⟨2, _⟩ => show win0_2.index t (2 : Fin 4) * 2048 + 1 * u.val = u.val; omega
  | ⟨3, _⟩ => show win0_2.index t (3 : Fin 4) * 64 + 1 * e.val = e.val; omega

/-- The mask block's row r is the mask's row si · 256 + r (one mask for every head). -/
theorem m_blk (c : Dev nD) (t : Fin cfg0.N) (r : Fin 256) (u : Fin 2048) :
    (iblk m c 3 t : Vec Ideal S1x1x256x2048 .f32) (ix4 (0 : Fin 1) (0 : Fin 1) r u) = V m c main_arg4 (ix4 (0 : Fin 1) (0 : Fin 1) (row t r) u) := by
  show V m c main_arg4 (((cfg0.win 3).blk t).view.emb (ix4 (0 : Fin 1) (0 : Fin 1) r u)) = _
  refine congrArg (V m c main_arg4) (funext fun a => Fin.ext ?_)
  obtain ⟨_, _, _, _, _, _, _, _, _, _, _, _, _, _, _, _, e0, e1, e2, e3, _⟩ := idx_facts t
  match a with
  | ⟨0, _⟩ => show win0_3.index t (0 : Fin 4) * 1 + 1 * 0 = 0; omega
  | ⟨1, _⟩ => show win0_3.index t (1 : Fin 4) * 1 + 1 * 0 = 0; omega
  | ⟨2, _⟩ => show win0_3.index t (2 : Fin 4) * 256 + 1 * r.val = win0_7.index t (2 : Fin 4) * 256 + r.val; omega
  | ⟨3, _⟩ => show win0_3.index t (3 : Fin 4) * 2048 + 1 * u.val = u.val; omega

/-- The bias block's row r is the bias array's row (b, h, si · 256 + r). -/
theorem p_blk (c : Dev nD) (t : Fin cfg0.N) (r : Fin 256) (u : Fin 2048) :
    (iblk m c 4 t : Vec Ideal S1x1x256x2048 .f32) (ix4 (0 : Fin 1) (0 : Fin 1) r u) = V m c main_arg3 (ix4 (hd t) (hh t) (row t r) u) := by
  show V m c main_arg3 (((cfg0.win 4).blk t).view.emb (ix4 (0 : Fin 1) (0 : Fin 1) r u)) = _
  refine congrArg (V m c main_arg3) (funext fun a => Fin.ext ?_)
  obtain ⟨_, _, _, _, _, _, _, _, _, _, _, _, _, _, _, _, _, _, _, _, e0, e1, e2, e3, _⟩ := idx_facts t
  match a with
  | ⟨0, _⟩ => show win0_4.index t (0 : Fin 4) * 1 + 1 * 0 = win0_7.index t (0 : Fin 4); omega
  | ⟨1, _⟩ => show win0_4.index t (1 : Fin 4) * 1 + 1 * 0 = win0_7.index t (1 : Fin 4); omega
  | ⟨2, _⟩ => show win0_4.index t (2 : Fin 4) * 256 + 1 * r.val = win0_7.index t (2 : Fin 4) * 256 + r.val; omega
  | ⟨3, _⟩ => show win0_4.index t (3 : Fin 4) * 2048 + 1 * u.val = u.val; omega

/-! ## A tile's rows, for blocks that are rows of arrays -/

/-- If the loaded blocks are the rows s r of head (b, h) of q, the mask and the bias, and the head's k, then row r of the score
    tile is the score row of position s r. -/
theorem scores_tile (x0 : Vec Ideal S1x1x256x64 .f32) (x1 : Vec Ideal S1x1x64x2048 .f32) (x3 x4 : Vec Ideal S1x1x256x2048 .f32)
    (q : SQ.Idx → EReal) (k : SK.Idx → EReal) (mask : SM.Idx → EReal) (prev : SS.Idx → EReal)
    (b : Fin 2) (h : Fin 16) (s : Fin 256 → Fin 2048)
    (h0 : ∀ r d, x0 (ix4 (0 : Fin 1) (0 : Fin 1) r d) = q (ix4 b h (s r) d))
    (h1 : ∀ d u, x1 (ix4 (0 : Fin 1) (0 : Fin 1) d u) = k (ix4 b h d u))
    (h3 : ∀ r u, x3 (ix4 (0 : Fin 1) (0 : Fin 1) r u) = mask (ix4 (0 : Fin 1) (0 : Fin 1) (s r) u))
    (h4 : ∀ r u, x4 (ix4 (0 : Fin 1) (0 : Fin 1) r u) = prev (ix4 b h (s r) u))
    (r : Fin 256) :
    (fun u => k0_pay3 x0 x1 x3 x4 (ix2 r u)) = scoresAt q k mask prev b h (s r) := by
  funext u
  have e0 : (fun d => x0 (ix4 (0 : Fin 1) (0 : Fin 1) r d)) = fun d => q (ix4 b h (s r) d) := funext (h0 r)
  have e1 : (fun d u => x1 (ix4 (0 : Fin 1) (0 : Fin 1) d u)) = fun d u => k (ix4 b h d u) := funext fun d => funext (h1 d)
  have e3 : (fun u => x3 (ix4 (0 : Fin 1) (0 : Fin 1) r u)) = fun u => mask (ix4 (0 : Fin 1) (0 : Fin 1) (s r) u) := funext (h3 r)
  have e4 : (fun u => x4 (ix4 (0 : Fin 1) (0 : Fin 1) r u)) = fun u => prev (ix4 b h (s r) u) := funext (h4 r)
  rw [Tile.pay3_apply, e0, e1, e3, e4]
  rfl

/-- Row r of the attention tile is the softmax of the score row of position s r. -/
theorem attn_tile (x0 : Vec Ideal S1x1x256x64 .f32) (x1 : Vec Ideal S1x1x64x2048 .f32) (x3 x4 : Vec Ideal S1x1x256x2048 .f32)
    (q : SQ.Idx → EReal) (k : SK.Idx → EReal) (mask : SM.Idx → EReal) (prev : SS.Idx → EReal)
    (b : Fin 2) (h : Fin 16) (s : Fin 256 → Fin 2048)
    (h0 : ∀ r d, x0 (ix4 (0 : Fin 1) (0 : Fin 1) r d) = q (ix4 b h (s r) d))
    (h1 : ∀ d u, x1 (ix4 (0 : Fin 1) (0 : Fin 1) d u) = k (ix4 b h d u))
    (h3 : ∀ r u, x3 (ix4 (0 : Fin 1) (0 : Fin 1) r u) = mask (ix4 (0 : Fin 1) (0 : Fin 1) (s r) u))
    (h4 : ∀ r u, x4 (ix4 (0 : Fin 1) (0 : Fin 1) r u) = prev (ix4 b h (s r) u))
    (r : Fin 256) :
    (fun u => k0_pay5 x0 x1 x3 x4 (ix2 r u)) = softmaxRow (scoresAt q k mask prev b h (s r)) := by
  funext u
  rw [Tile.pay5_apply, scores_tile x0 x1 x3 x4 q k mask prev b h s h0 h1 h3 h4 r]

/-- Row r of the stored context block is the context row of position s r: the attention row against the head's v. -/
theorem ctx_tile (x0 : Vec Ideal S1x1x256x64 .f32) (x1 : Vec Ideal S1x1x64x2048 .f32) (x2 : Vec Ideal S1x1x2048x64 .f32)
    (x3 x4 : Vec Ideal S1x1x256x2048 .f32)
    (q : SQ.Idx → EReal) (k : SK.Idx → EReal) (v : SQ.Idx → EReal) (mask : SM.Idx → EReal) (prev : SS.Idx → EReal)
    (b : Fin 2) (h : Fin 16) (s : Fin 256 → Fin 2048)
    (h0 : ∀ r d, x0 (ix4 (0 : Fin 1) (0 : Fin 1) r d) = q (ix4 b h (s r) d))
    (h1 : ∀ d u, x1 (ix4 (0 : Fin 1) (0 : Fin 1) d u) = k (ix4 b h d u))
    (h2 : ∀ u e, x2 (ix4 (0 : Fin 1) (0 : Fin 1) u e) = v (ix4 b h u e))
    (h3 : ∀ r u, x3 (ix4 (0 : Fin 1) (0 : Fin 1) r u) = mask (ix4 (0 : Fin 1) (0 : Fin 1) (s r) u))
    (h4 : ∀ r u, x4 (ix4 (0 : Fin 1) (0 : Fin 1) r u) = prev (ix4 b h (s r) u))
    (r : Fin 256) (e : Fin 64) :
    k0_pay2 (k0_pay5 x0 x1 x3 x4) x2 (ix4 (0 : Fin 1) (0 : Fin 1) r e)
      = ctxRow (softmaxRow (scoresAt q k mask prev b h (s r))) (fun u e' => v (ix4 b h u e')) e := by
  have e2 : (fun u e' => x2 (ix4 (0 : Fin 1) (0 : Fin 1) u e')) = fun u e' => v (ix4 b h u e') := funext fun u => funext (h2 u)
  rw [Tile.pay2_apply, attn_tile x0 x1 x3 x4 q k mask prev b h s h0 h1 h3 h4 r, e2]

/-! ## The scores -/

/-- Where the score window's block at a point puts its entry (0, 0, r, u): at (b, h, si · 256 + r, u). -/
theorem emb7 (t : Fin cfg0.N) (r : Fin 256) (u : Fin 2048) :
    ((cfg0.win 7).blk t).view.emb (ix4 (0 : Fin 1) (0 : Fin 1) r u) = ix4 (hd t) (hh t) (row t r) u := by
  refine funext fun a => Fin.ext ?_
  obtain ⟨_, _, _, e3, _⟩ := idx_facts t
  match a with
  | ⟨0, _⟩ => show win0_7.index t (0 : Fin 4) * 1 + 1 * 0 = win0_7.index t (0 : Fin 4); omega
  | ⟨1, _⟩ => show win0_7.index t (1 : Fin 4) * 1 + 1 * 0 = win0_7.index t (1 : Fin 4); omega
  | ⟨2, _⟩ => show win0_7.index t (2 : Fin 4) * 256 + 1 * r.val = win0_7.index t (2 : Fin 4) * 256 + r.val; omega
  | ⟨3, _⟩ => show win0_7.index t (3 : Fin 4) * 2048 + 1 * u.val = u.val; omega

/-- What a point writes back to the scores array is its block of the scores of the arguments. -/
theorem flushed7_eq (c : Dev nD) (t : Fin cfg0.N) :
    (dats m 0 c).flushed 7 t = ((cfg0.win 7).blk t).view.read (Elt Ideal)
      (Attn.scores (V m c main_arg0) (V m c main_arg1) (V m c main_arg4) (V m c main_arg3)) := by
  rw [Value.flushed7]
  unfold out0_7
  rw [View.canon_unit_zero hz4]
  simp only [View.ld_unit_zero (S := S1x1x256x64) hz4, View.ld_unit_zero (S := S1x1x64x2048) hz4, View.ld_unit_zero (S := S1x1x256x2048) hz4]
  show (k0_pay4 (iblk m c 0 t) (iblk m c 1 t) (iblk m c 3 t) (iblk m c 4 t) : Vec Ideal S1x1x256x2048 .f32)
      = fun j : S1x1x256x2048.Idx => Attn.scores (V m c main_arg0) (V m c main_arg1) (V m c main_arg4) (V m c main_arg3) (((cfg0.win 7).blk t).view.emb j)
  funext j
  obtain ⟨j0, j1, r, u, rfl⟩ : ∃ (j0 j1 : Fin 1) (r : Fin 256) (u : Fin 2048), j = ix4 j0 j1 r u := ⟨j 0, j 1, j 2, j 3, eq_ix4 j⟩
  obtain rfl : j0 = 0 := Subsingleton.elim _ _
  obtain rfl : j1 = 0 := Subsingleton.elim _ _
  refine (Tile.pay4_apply (iblk m c 0 t) (iblk m c 1 t) (iblk m c 3 t) (iblk m c 4 t) r u).trans ?_
  refine (congrFun (scores_tile (iblk m c 0 t) (iblk m c 1 t) (iblk m c 3 t) (iblk m c 4 t)
    (V m c main_arg0) (V m c main_arg1) (V m c main_arg4) (V m c main_arg3) (hd t) (hh t) (row t)
    (q_blk m c t) (k_blk m c t) (m_blk m c t) (p_blk m c t) r) u).trans ?_
  rw [emb7]
  rfl

/-- An index of the scores array is in a point's block iff each coordinate is in the block's range. -/
theorem mem_blk7 (t : Fin cfg0.N) (i : S2x16x2048x2048.Idx) :
    i ∈ ((cfg0.win 7).blk t).view.set ↔ ∀ a : Fin 4, win0_7.index t a * S1x1x256x2048.size a ≤ (i a).val ∧ (i a).val < win0_7.index t a * S1x1x256x2048.size a + S1x1x256x2048.size a := by
  show i ∈ ((View.whole main_v0_2).slice (win0_7.rect t)).set ↔ _
  rw [View.set_slice_whole, Rect.mem_set_unit]
  exact Iff.rfl

/-- The score blocks cover the scores array: index (b, h, s, u) is in the block of the point (b, h, s / 256). -/
theorem cover7 (i : S2x16x2048x2048.Idx) :
    ∃ t : Fin cfg0.N, (cfg0.win 7).flush t = true ∧ i ∈ ((cfg0.win 7).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, q0, q1, q2⟩ := idx_onto ⟨(i 0).val, hi0⟩ ⟨(i 1).val, hi1⟩ ⟨(i 2).val / 256, by omega⟩
  obtain ⟨_, _, _, e3, _⟩ := idx_facts t
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; simp only at q0; omega
  | ⟨1, _⟩ => show win0_7.index t (1 : Fin 4) * 1 ≤ (i 1).val ∧ (i 1).val < win0_7.index t (1 : Fin 4) * 1 + 1; simp only at q1; omega
  | ⟨2, _⟩ => show win0_7.index t (2 : Fin 4) * 256 ≤ (i 2).val ∧ (i 2).val < win0_7.index t (2 : Fin 4) * 256 + 256; simp only at q2; omega
  | ⟨3, _⟩ => show win0_7.index t (3 : Fin 4) * 2048 ≤ (i 3).val ∧ (i 3).val < win0_7.index t (3 : Fin 4) * 2048 + 2048; omega

/-- After the run the scores array holds the scores of the arguments. -/
theorem final7 (c : Dev nD) :
    (dats m 0 c).arrAt 7 cfg0.N = Attn.scores (V m c main_arg0) (V m c main_arg1) (V m c main_arg4) (V m c main_arg3) :=
  (dats m 0 c).arrAt_eq_of_cover 7 _ (fun t _ => flushed7_eq m c t) cover7

/-! ## The attention weights -/

/-- Where the attention window's block at a point puts its entry (0, 0, r, u): at (b, h, si · 256 + r, u). -/
theorem emb6 (t : Fin cfg0.N) (r : Fin 256) (u : Fin 2048) :
    ((cfg0.win 6).blk t).view.emb (ix4 (0 : Fin 1) (0 : Fin 1) r u) = ix4 (hd t) (hh t) (row t r) u := by
  refine funext fun a => Fin.ext ?_
  obtain ⟨_, _, _, _, _, _, _, _, _, _, _, _, _, _, _, _, _, _, _, _, _, _, _, _, _, _, _, _, e0, e1, e2, e3⟩ := idx_facts t
  match a with
  | ⟨0, _⟩ => show win0_6.index t (0 : Fin 4) * 1 + 1 * 0 = win0_7.index t (0 : Fin 4); omega
  | ⟨1, _⟩ => show win0_6.index t (1 : Fin 4) * 1 + 1 * 0 = win0_7.index t (1 : Fin 4); omega
  | ⟨2, _⟩ => show win0_6.index t (2 : Fin 4) * 256 + 1 * r.val = win0_7.index t (2 : Fin 4) * 256 + r.val; omega
  | ⟨3, _⟩ => show win0_6.index t (3 : Fin 4) * 2048 + 1 * u.val = u.val; omega

/-- What a point writes back to the attention array is its block of the attention weights of the arguments. -/
theorem flushed6_eq (c : Dev nD) (t : Fin cfg0.N) :
    (dats m 0 c).flushed 6 t = ((cfg0.win 6).blk t).view.read (Elt Ideal)
      (Attn.attn (V m c main_arg0) (V m c main_arg1) (V m c main_arg4) (V m c main_arg3)) := by
  rw [Value.flushed6]
  unfold out0_6
  rw [View.canon_unit_zero hz4]
  simp only [View.ld_unit_zero (S := S1x1x256x64) hz4, View.ld_unit_zero (S := S1x1x64x2048) hz4, View.ld_unit_zero (S := S1x1x256x2048) hz4]
  show (k0_pay1 (k0_pay5 (iblk m c 0 t) (iblk m c 1 t) (iblk m c 3 t) (iblk m c 4 t)) : Vec Ideal S1x1x256x2048 .f32)
      = fun j : S1x1x256x2048.Idx => Attn.attn (V m c main_arg0) (V m c main_arg1) (V m c main_arg4) (V m c main_arg3) (((cfg0.win 6).blk t).view.emb j)
  funext j
  obtain ⟨j0, j1, r, u, rfl⟩ : ∃ (j0 j1 : Fin 1) (r : Fin 256) (u : Fin 2048), j = ix4 j0 j1 r u := ⟨j 0, j 1, j 2, j 3, eq_ix4 j⟩
  obtain rfl : j0 = 0 := Subsingleton.elim _ _
  obtain rfl : j1 = 0 := Subsingleton.elim _ _
  refine (Tile.pay1_apply (k0_pay5 (iblk m c 0 t) (iblk m c 1 t) (iblk m c 3 t) (iblk m c 4 t)) r u).trans ?_
  refine (congrFun (attn_tile (iblk m c 0 t) (iblk m c 1 t) (iblk m c 3 t) (iblk m c 4 t)
    (V m c main_arg0) (V m c main_arg1) (V m c main_arg4) (V m c main_arg3) (hd t) (hh t) (row t)
    (q_blk m c t) (k_blk m c t) (m_blk m c t) (p_blk m c t) r) u).trans ?_
  rw [emb6]
  rfl

/-- An index of the attention array is in a point's block iff each coordinate is in the block's range. -/
theorem mem_blk6 (t : Fin cfg0.N) (i : S2x16x2048x2048.Idx) :
    i ∈ ((cfg0.win 6).blk t).view.set ↔ ∀ a : Fin 4, win0_6.index t a * S1x1x256x2048.size a ≤ (i a).val ∧ (i a).val < win0_6.index t a * S1x1x256x2048.size a + S1x1x256x2048.size a := by
  show i ∈ ((View.whole main_v0_1).slice (win0_6.rect t)).set ↔ _
  rw [View.set_slice_whole, Rect.mem_set_unit]
  exact Iff.rfl

/-- The attention blocks cover the attention array. -/
theorem cover6 (i : S2x16x2048x2048.Idx) :
    ∃ t : Fin cfg0.N, (cfg0.win 6).flush t = true ∧ i ∈ ((cfg0.win 6).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, q0, q1, q2⟩ := idx_onto ⟨(i 0).val, hi0⟩ ⟨(i 1).val, hi1⟩ ⟨(i 2).val / 256, by omega⟩
  obtain ⟨_, _, _, _, _, _, _, _, _, _, _, _, _, _, _, _, _, _, _, _, _, _, _, _, _, _, _, _, e0, e1, e2, e3⟩ := idx_facts t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; simp only at q0; omega
  | ⟨1, _⟩ => show win0_6.index t (1 : Fin 4) * 1 ≤ (i 1).val ∧ (i 1).val < win0_6.index t (1 : Fin 4) * 1 + 1; simp only at q1; omega
  | ⟨2, _⟩ => show win0_6.index t (2 : Fin 4) * 256 ≤ (i 2).val ∧ (i 2).val < win0_6.index t (2 : Fin 4) * 256 + 256; simp only at q2; omega
  | ⟨3, _⟩ => show win0_6.index t (3 : Fin 4) * 2048 ≤ (i 3).val ∧ (i 3).val < win0_6.index t (3 : Fin 4) * 2048 + 2048; omega

/-- After the run the attention array holds the attention weights of the arguments. -/
theorem final6 (c : Dev nD) :
    (dats m 0 c).arrAt 6 cfg0.N = Attn.attn (V m c main_arg0) (V m c main_arg1) (V m c main_arg4) (V m c main_arg3) :=
  (dats m 0 c).arrAt_eq_of_cover 6 _ (fun t _ => flushed6_eq m c t) cover6

/-! ## The context -/

/-- Where the context window's block at a point puts its entry (0, 0, r, e): at (b, h, si · 256 + r, e). -/
theorem emb5 (t : Fin cfg0.N) (r : Fin 256) (e : Fin 64) :
    ((cfg0.win 5).blk t).view.emb (ix4 (0 : Fin 1) (0 : Fin 1) r e) = ix4 (hd t) (hh t) (row t r) e := by
  refine funext fun a => Fin.ext ?_
  obtain ⟨_, _, _, _, _, _, _, _, _, _, _, _, _, _, _, _, _, _, _, _, _, _, _, _, e0, e1, e2, e3, _⟩ := idx_facts t
  match a with
  | ⟨0, _⟩ => show win0_5.index t (0 : Fin 4) * 1 + 1 * 0 = win0_7.index t (0 : Fin 4); omega
  | ⟨1, _⟩ => show win0_5.index t (1 : Fin 4) * 1 + 1 * 0 = win0_7.index t (1 : Fin 4); omega
  | ⟨2, _⟩ => show win0_5.index t (2 : Fin 4) * 256 + 1 * r.val = win0_7.index t (2 : Fin 4) * 256 + r.val; omega
  | ⟨3, _⟩ => show win0_5.index t (3 : Fin 4) * 64 + 1 * e.val = e.val; omega

/-- What a point writes back to the context array is its block of the context of the arguments. -/
theorem flushed5_eq (c : Dev nD) (t : Fin cfg0.N) :
    (dats m 0 c).flushed 5 t = ((cfg0.win 5).blk t).view.read (Elt Ideal)
      (Attn.ctx (V m c main_arg0) (V m c main_arg1) (V m c main_arg2) (V m c main_arg4) (V m c main_arg3)) := by
  rw [Value.flushed5]
  unfold out0_5
  rw [View.canon_unit_zero hz4]
  simp only [View.ld_unit_zero (S := S1x1x256x64) hz4, View.ld_unit_zero (S := S1x1x64x2048) hz4, View.ld_unit_zero (S := S1x1x256x2048) hz4,
    View.ld_unit_zero (S := S1x1x2048x64) hz4]
  show (k0_pay2 (k0_pay5 (iblk m c 0 t) (iblk m c 1 t) (iblk m c 3 t) (iblk m c 4 t)) (iblk m c 2 t) : Vec Ideal S1x1x256x64 .f32)
      = fun j : S1x1x256x64.Idx => Attn.ctx (V m c main_arg0) (V m c main_arg1) (V m c main_arg2) (V m c main_arg4) (V m c main_arg3) (((cfg0.win 5).blk t).view.emb j)
  funext j
  obtain ⟨j0, j1, r, e, rfl⟩ : ∃ (j0 j1 : Fin 1) (r : Fin 256) (e : Fin 64), j = ix4 j0 j1 r e := ⟨j 0, j 1, j 2, j 3, eq_ix4 j⟩
  obtain rfl : j0 = 0 := Subsingleton.elim _ _
  obtain rfl : j1 = 0 := Subsingleton.elim _ _
  refine (ctx_tile (iblk m c 0 t) (iblk m c 1 t) (iblk m c 2 t) (iblk m c 3 t) (iblk m c 4 t)
    (V m c main_arg0) (V m c main_arg1) (V m c main_arg2) (V m c main_arg4) (V m c main_arg3) (hd t) (hh t) (row t)
    (q_blk m c t) (k_blk m c t) (v_blk m c t) (m_blk m c t) (p_blk m c t) r e).trans ?_
  rw [emb5]
  rfl

/-- An index of the context array is in a point's block iff each coordinate is in the block's range. -/
theorem mem_blk5 (t : Fin cfg0.N) (i : S2x16x2048x64.Idx) :
    i ∈ ((cfg0.win 5).blk t).view.set ↔ ∀ a : Fin 4, win0_5.index t a * S1x1x256x64.size a ≤ (i a).val ∧ (i a).val < win0_5.index t a * S1x1x256x64.size a + S1x1x256x64.size a := by
  show i ∈ ((View.whole main_v0_0).slice (win0_5.rect t)).set ↔ _
  rw [View.set_slice_whole, Rect.mem_set_unit]
  exact Iff.rfl

/-- The context blocks cover the context array. -/
theorem cover5 (i : S2x16x2048x64.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, q0, q1, q2⟩ := idx_onto ⟨(i 0).val, hi0⟩ ⟨(i 1).val, hi1⟩ ⟨(i 2).val / 256, by omega⟩
  obtain ⟨_, _, _, _, _, _, _, _, _, _, _, _, _, _, _, _, _, _, _, _, _, _, _, _, e0, e1, e2, e3, _⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; simp only at q0; omega
  | ⟨1, _⟩ => show win0_5.index t (1 : Fin 4) * 1 ≤ (i 1).val ∧ (i 1).val < win0_5.index t (1 : Fin 4) * 1 + 1; simp only at q1; omega
  | ⟨2, _⟩ => show win0_5.index t (2 : Fin 4) * 256 ≤ (i 2).val ∧ (i 2).val < win0_5.index t (2 : Fin 4) * 256 + 256; simp only at q2; omega
  | ⟨3, _⟩ => show win0_5.index t (3 : Fin 4) * 64 ≤ (i 3).val ∧ (i 3).val < win0_5.index t (3 : Fin 4) * 64 + 64; omega

/-- After the run the context array holds the context of the arguments. -/
theorem final5 (c : Dev nD) :
    (dats m 0 c).arrAt 5 cfg0.N = Attn.ctx (V m c main_arg0) (V m c main_arg1) (V m c main_arg2) (V m c main_arg4) (V m c main_arg3) :=
  (dats m 0 c).arrAt_eq_of_cover 5 _ (fun t _ => flushed5_eq m c t) cover5

/-- The kernel's run with its three results named by the attention arrays of the arguments. -/
theorem run : θ_run defs (onTc (τ := τ) (main (F := Ideal))) ⟨m, fun _ => 0, ρ⟩ fun r => ∀ c : Dev nD,
      r.2.mem ((c : Thread nD τ).loc main_v0_0) = Attn.ctx (m ((c : Thread nD τ).loc main_arg0)) (m ((c : Thread nD τ).loc main_arg1)) (m ((c : Thread nD τ).loc main_arg2)) (m ((c : Thread nD τ).loc main_arg4)) (m ((c : Thread nD τ).loc main_arg3))
      ∧ r.2.mem ((c : Thread nD τ).loc main_v0_1) = Attn.attn (m ((c : Thread nD τ).loc main_arg0)) (m ((c : Thread nD τ).loc main_arg1)) (m ((c : Thread nD τ).loc main_arg4)) (m ((c : Thread nD τ).loc main_arg3))
      ∧ r.2.mem ((c : Thread nD τ).loc main_v0_2) = Attn.scores (m ((c : Thread nD τ).loc main_arg0)) (m ((c : Thread nD τ).loc main_arg1)) (m ((c : Thread nD τ).loc main_arg4)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).1.trans (final5 m c), (h c).2.1.trans (final6 m c), (h c).2.2.1.trans (final7 m c), (h c).2.2.2⟩)
    (Cert.KernelIdeal.Value.run_blocks m ρ)

end Cert.KernelIdeal.Whole

end
-- ==== Proof.Ref.lean ====
/-
  The reference's three results, index by index, are the attention arrays of Spec.lean. The reference computes over whole arrays:
  a batched product of q with k, divided by the square root of 64, plus the mask broadcast over the heads, plus the bias; then each
  row's maximum (a fold of max from -∞ along the last axis), the exponentials of the differences, their row sums, the quotients;
  and a batched product of those with v. Read at an index (b, h, s, ·) every stage depends on row (b, h, s) alone.
-/
import proofs.«137787_j12171937316878_1_alg».proof.Proof.Gen.ReferenceIdeal.Read
import proofs.«137787_j12171937316878_1_alg».proof.Proof.Spec

noncomputable section

namespace Cert.ReferenceIdeal.Whole

open Cert.ReferenceIdeal Cert.ReferenceIdeal.Gen Idealize.ShloMosaic Idealize.ShloMosaic.TcCoe Idealize.SL.Sem
open Idealize.ShloMosaic.ValueIdx Cert.Attn

/-- The reference's scores are the scores array. -/
theorem ref_scores (x0 : (⟨S2x16x2048x64, .f32⟩ : BufTy).Contents (Elt Ideal)) (x1 : (⟨S2x16x64x2048, .f32⟩ : BufTy).Contents (Elt Ideal))
    (x3 : (⟨S2x16x2048x2048, .f32⟩ : BufTy).Contents (Elt Ideal)) (x4 : (⟨S1x1x2048x2048, .f32⟩ : BufTy).Contents (Elt Ideal)) :
    Read.val_main_v6 (F := Ideal) x0 x1 x3 x4 = Attn.scores x0 x1 x4 x3 := by
  funext i
  obtain ⟨b, h, s, t, rfl⟩ : ∃ b h s t, i = ix4 b h s t := ⟨_, _, _, _, eq_ix4 i⟩
  -- read the two sums, the quotient, the broadcast mask and the bias at the index
  rw [Read.val_main_v6_apply, Read.val_main_v5_apply, Read.val_main_v3_apply, Read.val_main_v4_apply,
    Read.val_main_v2_apply, Read.val_main_v1_apply, Read.val_main_cst_apply, Read.val_main_v0_apply]
  -- on the extended reals: sums are sums, and the quotient by √64 is the product with 1/8
  rw [Ideal.addf_def, Ideal.addf_def, Ideal.hostDivf_def, Ideal.hostUnary_sqrt_def, Ideal.ofBits_def, Attn.div_sqrt64]
  -- the operands' indices are (b, h, s, d), (b, h, d, t) and (0, 0, s, t)
  have el : ∀ k : Fin 64, Read.lidx_main_v0 (ix4 b h s t) k = ix4 b h s k := fun k => funext fun a => Fin.ext (by
    match a with | ⟨0, _⟩ => rfl | ⟨1, _⟩ => rfl | ⟨2, _⟩ => rfl | ⟨3, _⟩ => rfl)
  have er : ∀ k : Fin 64, Read.ridx_main_v0 (ix4 b h s t) k = ix4 b h k t := fun k => funext fun a => Fin.ext (by
    match a with | ⟨0, _⟩ => rfl | ⟨1, _⟩ => rfl | ⟨2, _⟩ => rfl | ⟨3, _⟩ => rfl)
  have em : Read.idx_main_v4 (ix4 b h s t) = ix4 (0 : Fin 1) (0 : Fin 1) s t := funext fun a => Fin.ext (by
    match a with | ⟨0, _⟩ => rfl | ⟨1, _⟩ => rfl | ⟨2, _⟩ => rfl | ⟨3, _⟩ => rfl)
  simp only [el, er, em]
  rfl

/-- Along row (b, h, s) the reference's scores are the score row. -/
private theorem v6_row (x0 : (⟨S2x16x2048x64, .f32⟩ : BufTy).Contents (Elt Ideal)) (x1 : (⟨S2x16x64x2048, .f32⟩ : BufTy).Contents (Elt Ideal))
    (x3 : (⟨S2x16x2048x2048, .f32⟩ : BufTy).Contents (Elt Ideal)) (x4 : (⟨S1x1x2048x2048, .f32⟩ : BufTy).Contents (Elt Ideal))
    (b : Fin 2) (h : Fin 16) (s u : Fin 2048) :
    Read.val_main_v6 (F := Ideal) x0 x1 x3 x4 (ix4 b h s u) = scoresAt x0 x1 x4 x3 b h s u :=
  congrFun (ref_scores x0 x1 x3 x4) (ix4 b h s u)

/-- The reduced index (b, h, s) with the last coordinate k put back is (b, h, s, k). -/
private theorem lift_row (hR : S2x16x2048x2048.Reduces [3] S2x16x2048) (b : Fin 2) (h : Fin 16) (s : Fin 2048)
    (k : Fin (S2x16x2048x2048.size 3)) : hR.lift (ix3 b h s) k = ix4 b h s (⟨k.val, k.isLt⟩ : Fin 2048) := by
  funext c; apply Fin.ext
  match c with | ⟨0, _⟩ => rfl | ⟨1, _⟩ => rfl | ⟨2, _⟩ => rfl | ⟨3, _⟩ => rfl

/-- The reference's fold of max along the last axis, at (b, h, s), is the fold of max from -∞ over the score row. -/
private theorem v7_row (x0 : (⟨S2x16x2048x64, .f32⟩ : BufTy).Contents (Elt Ideal)) (x1 : (⟨S2x16x64x2048, .f32⟩ : BufTy).Contents (Elt Ideal))
    (x3 : (⟨S2x16x2048x2048, .f32⟩ : BufTy).Contents (Elt Ideal)) (x4 : (⟨S1x1x2048x2048, .f32⟩ : BufTy).Contents (Elt Ideal))
    (b : Fin 2) (h : Fin 16) (s : Fin 2048) :
    Read.val_main_v7 (F := Ideal) x0 x1 x3 x4 (ix3 b h s)
      = (Finset.univ : Finset (Fin 2048)).fold max negInf (scoresAt x0 x1 x4 x3 b h s) := by
  have hR : S2x16x2048x2048.Reduces [3] S2x16x2048 := by decide
  unfold Read.val_main_v7
  rw [Host.reduce_eq_fold_single FloatOps.maximumf _ _ reducesTo_S2x16x2048x2048_S2x16x2048_d3 hR h_S_]
  have hf : (Read.val_main_v6 (F := Ideal) x0 x1 x3 x4 ∘ hR.lift (ix3 b h s)) = fun k : Fin 2048 => scoresAt x0 x1 x4 x3 b h s k :=
    funext fun k => (congrArg (Read.val_main_v6 (F := Ideal) x0 x1 x3 x4) (lift_row hR b h s k)).trans (v6_row x0 x1 x3 x4 b h s _)
  exact congrArg (fun f => Finset.fold max negInf f (Finset.univ : Finset (Fin 2048))) hf

/-- The reference's row maximum at (b, h, s) is the score row's maximum. -/
private theorem v9_row (x0 : (⟨S2x16x2048x64, .f32⟩ : BufTy).Contents (Elt Ideal)) (x1 : (⟨S2x16x64x2048, .f32⟩ : BufTy).Contents (Elt Ideal))
    (x3 : (⟨S2x16x2048x2048, .f32⟩ : BufTy).Contents (Elt Ideal)) (x4 : (⟨S1x1x2048x2048, .f32⟩ : BufTy).Contents (Elt Ideal))
    (b : Fin 2) (h : Fin 16) (s : Fin 2048) :
    Read.val_main_v9 (F := Ideal) x0 x1 x3 x4 (ix3 b h s) = rowMax (scoresAt x0 x1 x4 x3 b h s) := by
  rw [Read.val_main_v9_apply, Read.val_main_v8_apply, Read.val_main_cst_1_apply, v7_row]
  rfl

/-- The reference's exponentials along row (b, h, s): each score less the row's maximum, exponentiated. -/
private theorem v13_row (x0 : (⟨S2x16x2048x64, .f32⟩ : BufTy).Contents (Elt Ideal)) (x1 : (⟨S2x16x64x2048, .f32⟩ : BufTy).Contents (Elt Ideal))
    (x3 : (⟨S2x16x2048x2048, .f32⟩ : BufTy).Contents (Elt Ideal)) (x4 : (⟨S1x1x2048x2048, .f32⟩ : BufTy).Contents (Elt Ideal))
    (b : Fin 2) (h : Fin 16) (s u : Fin 2048) :
    Read.val_main_v13 (F := Ideal) x0 x1 x3 x4 (ix4 b h s u)
      = Ideal.exp (scoresAt x0 x1 x4 x3 b h s u - rowMax (scoresAt x0 x1 x4 x3 b h s)) := by
  rw [Read.val_main_v13_apply, Read.val_main_v12_apply, Read.val_main_v11_apply, Read.val_main_v10_apply]
  have e : Read.idx_main_v10 (Read.idx_main_v11 (ix4 b h s u)) = ix3 b h s := funext fun a => Fin.ext (by
    match a with | ⟨0, _⟩ => rfl | ⟨1, _⟩ => rfl | ⟨2, _⟩ => rfl)
  rw [e, v9_row, v6_row]
  rfl

/-- The reference's attention weights are the attention array. -/
theorem ref_attn (x0 : (⟨S2x16x2048x64, .f32⟩ : BufTy).Contents (Elt Ideal)) (x1 : (⟨S2x16x64x2048, .f32⟩ : BufTy).Contents (Elt Ideal))
    (x3 : (⟨S2x16x2048x2048, .f32⟩ : BufTy).Contents (Elt Ideal)) (x4 : (⟨S1x1x2048x2048, .f32⟩ : BufTy).Contents (Elt Ideal)) :
    Read.val_main_v17 (F := Ideal) x0 x1 x3 x4 = Attn.attn x0 x1 x4 x3 := by
  funext i
  obtain ⟨b, h, s, t, rfl⟩ : ∃ b h s t, i = ix4 b h s t := ⟨_, _, _, _, eq_ix4 i⟩
  -- the quotient of the exponential at (b, h, s, t) by the row sum, the row sum read at (b, h, s)
  rw [Read.val_main_v17_apply, Read.val_main_v16_apply, Read.val_main_v15_apply, Read.val_main_v14_apply,
    Read.val_main_cst_2_apply]
  have e : Read.idx_main_v15 (Read.idx_main_v16 (ix4 b h s t)) = ix3 b h s := funext fun a => Fin.ext (by
    match a with | ⟨0, _⟩ => rfl | ⟨1, _⟩ => rfl | ⟨2, _⟩ => rfl)
  have e14 : ∀ k : Fin 2048, Read.idx_main_v14 (ix3 b h s) k = ix4 b h s k := fun k => funext fun a => Fin.ext (by
    match a with | ⟨0, _⟩ => rfl | ⟨1, _⟩ => rfl | ⟨2, _⟩ => rfl | ⟨3, _⟩ => rfl)
  rw [e]
  simp only [e14, v13_row]
  -- the sum starts from the word of zero, which is 0
  rw [Ideal.hostDivf_def, Ideal.ofBits_def, Ideal.ofBits_zero_f32, zero_add]
  rfl

/-- The reference's context is the context array. -/
theorem ref_ctx (x0 : (⟨S2x16x2048x64, .f32⟩ : BufTy).Contents (Elt Ideal)) (x1 : (⟨S2x16x64x2048, .f32⟩ : BufTy).Contents (Elt Ideal))
    (x2 : (⟨S2x16x2048x64, .f32⟩ : BufTy).Contents (Elt Ideal))
    (x3 : (⟨S2x16x2048x2048, .f32⟩ : BufTy).Contents (Elt Ideal)) (x4 : (⟨S1x1x2048x2048, .f32⟩ : BufTy).Contents (Elt Ideal)) :
    Read.val_main_v18 (F := Ideal) x0 x1 x2 x3 x4 = Attn.ctx x0 x1 x2 x4 x3 := by
  funext i
  obtain ⟨b, h, s, e, rfl⟩ : ∃ b h s e, i = ix4 b h s e := ⟨_, _, _, _, eq_ix4 i⟩
  -- the sum over t of the attention weight at (b, h, s, t) times v at (b, h, t, e)
  rw [Read.val_main_v18_apply]
  have el : ∀ k : Fin 2048, Read.lidx_main_v18 (ix4 b h s e) k = ix4 b h s k := fun k => funext fun a => Fin.ext (by
    match a with | ⟨0, _⟩ => rfl | ⟨1, _⟩ => rfl | ⟨2, _⟩ => rfl | ⟨3, _⟩ => rfl)
  have er : ∀ k : Fin 2048, Read.ridx_main_v18 (ix4 b h s e) k = ix4 b h k e := fun k => funext fun a => Fin.ext (by
    match a with | ⟨0, _⟩ => rfl | ⟨1, _⟩ => rfl | ⟨2, _⟩ => rfl | ⟨3, _⟩ => rfl)
  simp only [el, er, ref_attn]
  rfl

/-- The reference's run with its three results named by the attention arrays of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = Attn.ctx (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3))
      ∧ r.2.mem ((c.tc : Thread nD τ).loc main_v17) = Attn.attn (m ((c.tc : Thread nD τ).loc main_arg0)) (m ((c.tc : Thread nD τ).loc main_arg1)) (m ((c.tc : Thread nD τ).loc main_arg4)) (m ((c.tc : Thread nD τ).loc main_arg3))
      ∧ r.2.mem ((c.tc : Thread nD τ).loc main_v6) = Attn.scores (m ((c.tc : Thread nD τ).loc main_arg0)) (m ((c.tc : Thread nD τ).loc main_arg1)) (m ((c.tc : Thread nD τ).loc main_arg4)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c).1.trans ((Read.val_main_v18_eq _ _ _ _ _).trans (ref_ctx _ _ _ _ _)),
       (h c).2.1.trans ((Read.val_main_v17_eq _ _ _ _).trans (ref_attn _ _ _ _)),
       (h c).2.2.1.trans ((Read.val_main_v6_eq _ _ _ _).trans (ref_scores _ _ _ _)),
       (h c).2.2.2⟩)
    (Cert.ReferenceIdeal.Value.run (F := Ideal) m ρ)

end Cert.ReferenceIdeal.Whole

end
-- ==== Proof.lean ====
/-
  Scaled dot-product attention, one query tile per grid point, against the jnp reference, over the extended reals.
  Both programs compute, for every head (b, h) and query position s,
    scores = ((q · k) · 1/8 + mask) + prev,   attn = softmax of each score row,   context = attn · v,
  the kernel tile by tile (256 query rows at a time, k and v of the head whole) with the scale as the word of 0.125, the reference
  over whole arrays with the scale as a quotient by the square root of 64. At the extended reals a matrix product is the plain sum
  of products whatever the tiling, a change of float format is the identity, and dividing by √64 = 8 is multiplying by 1/8 at the
  infinities too, so the three results are the same functions of the five arguments (Spec.lean), index by index; no finiteness
  of the inputs is used. The idealized kernel is the kernel's own text (no rewrite), so the preservation claim is empty.
-/
import proofs.«137787_j12171937316878_1_alg».proof.Defs
import proofs.«137787_j12171937316878_1_alg».proof.Proof.Gen.Kernel
import proofs.«137787_j12171937316878_1_alg».proof.Proof.Gen.Kernel.Skeleton
import proofs.«137787_j12171937316878_1_alg».proof.Proof.Gen.Kernel.Launch
import proofs.«137787_j12171937316878_1_alg».proof.Proof.Gen.Kernel.Points
import proofs.«137787_j12171937316878_1_alg».proof.Proof.Gen.Kernel.Frame
import proofs.«137787_j12171937316878_1_alg».proof.Proof.Gen.KernelIdeal
import proofs.«137787_j12171937316878_1_alg».proof.Proof.Gen.KernelIdeal.Skeleton
import proofs.«137787_j12171937316878_1_alg».proof.Proof.Gen.KernelIdeal.Launch
import proofs.«137787_j12171937316878_1_alg».proof.Proof.Gen.KernelIdeal.Points
import proofs.«137787_j12171937316878_1_alg».proof.Proof.Gen.KernelIdeal.Frame
import proofs.«137787_j12171937316878_1_alg».proof.Proof.Gen.ReferenceIdeal
import proofs.«137787_j12171937316878_1_alg».proof.Proof.Gen.Pre_finite_inputs
import proofs.«137787_j12171937316878_1_alg».proof.Proof.Gen.KernelIdeal.Value
import proofs.«137787_j12171937316878_1_alg».proof.Proof.Gen.ReferenceIdeal.Run
import proofs.«137787_j12171937316878_1_alg».proof.Proof.Gen.ReferenceIdeal.Read
import proofs.«137787_j12171937316878_1_alg».proof.Proof.KArr
import proofs.«137787_j12171937316878_1_alg».proof.Proof.Ref
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and leaves its arguments as they were: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the five arguments both programs end with the context, attention and scores arrays of those
    arguments: the same three functions on both sides. -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun _ h c => ?_) (Cert.ReferenceIdeal.Whole.run m' ρ')
  obtain ⟨a0, a1, a2, a3, a4⟩ := hagree c
  have hc := h c
  exact ⟨hc.1.trans (by rw [a0, a1, a2, a3, a4]), hc.2.1.trans (by rw [a0, a1, a3, a4]),
    hc.2.2.1.trans (by rw [a0, a1, a3, a4]), hc.2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
